-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : IVec S2x320000 32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S4000x256 : Shape := ⟨2, ![4000, 256]⟩
abbrev S1x256 : Shape := ⟨2, ![1, 256]⟩
abbrev S2000x256 : Shape := ⟨2, ![2000, 256]⟩

abbrev nBuf : Space → Nat
  | .hbm => 30
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S256x256, .bf16⟩
  | .hbm, ⟨11, _⟩ => ⟨S256x256, .bf16⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S320000x256, .bf16⟩
  | .hbm, ⟨22, _⟩ => ⟨S320000x256, .f32⟩
  | .hbm, ⟨23, _⟩ => ⟨S_, .f32⟩
  | .hbm, ⟨24, _⟩ => ⟨S10000x256, .f32⟩
  | .hbm, ⟨25, _⟩ => ⟨S320000x1, .i32⟩
  | .hbm, ⟨26, _⟩ => ⟨S10000x256, .f32⟩
  | .hbm, ⟨27, _⟩ => ⟨S10000x256, .f32⟩
  | .hbm, ⟨28, _⟩ => ⟨S10000x256, .bf16⟩
  | .hbm, ⟨29, _⟩ => ⟨S10000x256, .f32⟩
  | .local _ .vmem, ⟨0, _⟩ => ⟨S4000x256, .bf16⟩
  | .local _ .vmem, ⟨1, _⟩ => ⟨S4000x256, .bf16⟩
  | .local _ .vmem, ⟨2, _⟩ => ⟨S256x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S4000x256, .f32⟩
  | .local _ .vmem, ⟨7, _⟩ => ⟨S4000x256, .f32⟩
  | .local _ .vmem, ⟨8, _⟩ => ⟨S2000x256, .bf16⟩
  | .local _ .vmem, ⟨9, _⟩ => ⟨S2000x256, .bf16⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S2000x256, .f32⟩
  | .local _ .vmem, ⟨15, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  bcast_S_S10000x256 : S_.BroadcastsInDim S10000x256 (![] : Fin 0 → Fin S10000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  gather_S10000x256_S320000x1_S320000x256_1_0_n_n_0_1_1256_wf : GatherDims.WF S10000x256 S320000x1 S320000x256 [1] [0] [] [0] [] 1 ![1, 256]
  dot_S4000x256_S256x256_S4000x256_1_0_0_1_n_n_wf : DotDims.WF S4000x256 S256x256 S4000x256 [1] [0] [0] [1] [] []
  scatter_S10000x256_S320000x1_S320000x256_1_0_0_1_wf : ScatterDims.WF S10000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .bf16 = 32 ∨ (Rect.block (s := S320000x256) S4000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S320000x256.size a
  hwx0_5 : ∀ i : grid0.Coords, EltTy.bits .f32 = 32 ∨ (Rect.block (s := S320000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .bf16 = 32 ∨ (Rect.block (s := S10000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v13) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x256, .f32⟩
  | .hbm, ⟨19, _⟩ => ⟨S320000x256, .f32⟩
  | .hbm, ⟨20, _⟩ => ⟨S1x256, .f32⟩
  | .hbm, ⟨21, _⟩ => ⟨S320000x256, .f32⟩
  | .hbm, ⟨22, _⟩ => ⟨S320000x256, .f32⟩
  | .hbm, ⟨23, _⟩ => ⟨S_, .f32⟩
  | .hbm, ⟨24, _⟩ => ⟨S320000x256, .f32⟩
  | .hbm, ⟨25, _⟩ => ⟨S320000x256, .f32⟩
  | .hbm, ⟨26, _⟩ => ⟨S320000x256, .f32⟩
  | .hbm, ⟨27, _⟩ => ⟨S1x256, .f32⟩
  | .hbm, ⟨28, _⟩ => ⟨S320000x256, .f32⟩
  | .hbm, ⟨29, _⟩ => ⟨S320000x256, .f32⟩
  | .hbm, ⟨30, _⟩ => ⟨S_, .f32⟩
  | .hbm, ⟨31, _⟩ => ⟨S10000x256, .f32⟩
  | .hbm, ⟨32, _⟩ => ⟨S320000x1, .i32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S1x256, .f32⟩
  | .hbm, ⟨44, _⟩ => ⟨S10000x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_cst : Ref sig .tc := ⟨.hbm, 39, rfl⟩
abbrev main_call1_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000x256 : S_.BroadcastsInDim S10000x256 (![] : Fin 0 → Fin S10000x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  dot_S320000x256_S256x256_S320000x256_1_0_0_1_n_n_wf : DotDims.WF S320000x256 S256x256 S320000x256 [1] [0] [0] [1] [] []
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.LibMlp.lean ====
/-
  A two-layer perceptron over the extended reals, row by row: for one row `h` of 256 numbers,
  entry `q` of the result is  ∑ₖ max(∑ₗ h l · w1(l,k) + b1 k, 0) · w2(k,q) + b2 q.
  Two arrangements of vector operations compute it on every row of an `n × 256` array: a matrix unit's product
  into a zero accumulator with the bias row broadcast (through a unit leading axis) and the result of the rectifier
  narrowed before the second product; and a host `dot_general` with the bias broadcast in dimensions and the
  rectifier's zero broadcast from a scalar. Both are read here at an index `(i, q)`, for any number of rows.
  Underneath: a plain `M×K` by `K×N` product read at `(i, q)` is `∑ₖ l(i,k) · r(k,q)`.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibMlp

open Idealize.ShloMosaic Idealize.ShloMosaic.ValueIdx

/-! ## A plain product's operand indices -/

/-- The left operand of a plain product is read at (row of the result, contraction coordinate). -/
theorem plain_lhsIdx (M K N : ℕ) (i : Fin M) (q : Fin N) (k : Fin K) :
    (DotDims.plain M K N).lhsIdx (ix2 i q) ((contrEquiv1 (DotDims.plain M K N) K rfl rfl).symm k) = ix2 i k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 i q) _).trans hk

/-- The right operand of a plain product is read at (contraction coordinate, column of the result). -/
theorem plain_rhsIdx (M K N : ℕ) (i : Fin M) (q : Fin N) (k : Fin K) :
    (DotDims.plain M K N).rhsIdx (ix2 i q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 i q) _).trans hk
  | ⟨1, _⟩ => rfl

/-- A matrix unit's plain product into the zero accumulator, at `(i, q)`: the sum over the contraction. -/
theorem matmul_plain_apply {φ₁ φ₂ : FTy} (M K N : ℕ) (l : FVec Ideal ⟨2, ![M, K]⟩ φ₁) (r : FVec Ideal ⟨2, ![K, N]⟩ φ₂)
    (i : Fin M) (q : Fin N) :
    FloatOps.matmul (DotDims.plain M K N) none l r (constant ⟨2, ![M, N]⟩ .f32 0x00000000#32) (ix2 i q)
      = ∑ k : Fin K, l (ix2 i k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product at `(i, q)`: the same sum. -/
theorem dotGeneral_plain_apply {φ₁ φ₂ : FTy} (M K N : ℕ) (sched : HostSchedule) (l : FVec Ideal ⟨2, ![M, K]⟩ φ₁) (r : FVec Ideal ⟨2, ![K, N]⟩ φ₂)
    (i : Fin M) (q : Fin N) :
    FloatOps.dotGeneral (DotDims.plain M K N) none sched l r (ix2 i q) = ∑ k : Fin K, l (ix2 i k) * r (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

/-! ## The perceptron on one row, and on every row -/

/-- Entry `q` of the two-layer perceptron of one row `h`. -/
def entry (h : Fin 256 → EReal) (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal) (q : Fin 256) : EReal :=
  (∑ k : Fin 256, max ((∑ l : Fin 256, h l * w1 (ix2 l k)) + b1 (ix1 k)) (Ideal.ofBits .f32 0x00000000#32) * w2 (ix2 k q)) + b2 (ix1 q)

/-- The perceptron applied to every row of an `n × 256` array. -/
def rows (n : ℕ) (h : (⟨2, ![n, 256]⟩ : Shape).Idx → EReal) (w1 : (⟨2, ![256, 256]⟩ : Shape).Idx → EReal)
    (b1 : (⟨1, ![256]⟩ : Shape).Idx → EReal) (w2 : (⟨2, ![256, 256]⟩ : Shape).Idx → EReal) (b2 : (⟨1, ![256]⟩ : Shape).Idx → EReal) :
    (⟨2, ![n, 256]⟩ : Shape).Idx → EReal :=
  fun j => entry (fun l => h (ix2 (j 0) l)) w1 b1 w2 b2 (j 1)

theorem rows_apply (n : ℕ) (h : (⟨2, ![n, 256]⟩ : Shape).Idx → EReal) (w1 : (⟨2, ![256, 256]⟩ : Shape).Idx → EReal)
    (b1 : (⟨1, ![256]⟩ : Shape).Idx → EReal) (w2 : (⟨2, ![256, 256]⟩ : Shape).Idx → EReal) (b2 : (⟨1, ![256]⟩ : Shape).Idx → EReal)
    (i : Fin n) (q : Fin 256) : rows n h w1 b1 w2 b2 (ix2 i q) = entry (fun l => h (ix2 i l)) w1 b1 w2 b2 q := rfl

/-- THE MATRIX UNIT'S ARRANGEMENT: both products into zero accumulators, each bias cast to a `1 × 256` row and broadcast
    down the rows, the rectifier against a broadcast scalar zero, narrowed (the identity here) before the second product. -/
theorem unit_form_apply (n : ℕ) (h : FVec Ideal ⟨2, ![n, 256]⟩ .bf16) (w1 : FVec Ideal ⟨2, ![256, 256]⟩ .bf16)
    (b1 : FVec Ideal ⟨1, ![256]⟩ .f32) (w2 : FVec Ideal ⟨2, ![256, 256]⟩ .bf16) (b2 : FVec Ideal ⟨1, ![256]⟩ .f32)
    (hh : (⟨2, ![n, 256]⟩ : Shape).ShapeCasts ⟨2, ![n, 256]⟩) (hw : (⟨2, ![256, 256]⟩ : Shape).ShapeCasts ⟨2, ![256, 256]⟩)
    (hb : (⟨1, ![256]⟩ : Shape).ShapeCasts ⟨2, ![1, 256]⟩) (hbb : (⟨2, ![1, 256]⟩ : Shape).Broadcasts ⟨2, ![n, 256]⟩)
    (ht : (FTy.bf16).bits < (FTy.f32).bits) (i : Fin n) (q : Fin 256) :
    addf (matmul (DotDims.plain n 256 256) none
            (truncf .bf16 (maximumf (addf (matmul (DotDims.plain n 256 256) none (shapeCast ⟨2, ![n, 256]⟩ h hh) (shapeCast ⟨2, ![256, 256]⟩ w1 hw) (constant ⟨2, ![n, 256]⟩ .f32 0x00000000#32))
                                          (broadcastTo ⟨2, ![n, 256]⟩ (shapeCast ⟨2, ![1, 256]⟩ b1 hb) hbb))
                                    (broadcast ⟨2, ![n, 256]⟩ (Scalar.ofBits (F := Ideal) .f32 0x00000000#32))) ht)
            (shapeCast ⟨2, ![256, 256]⟩ w2 hw) (constant ⟨2, ![n, 256]⟩ .f32 0x00000000#32))
         (broadcastTo ⟨2, ![n, 256]⟩ (shapeCast ⟨2, ![1, 256]⟩ b2 hb) hbb) (ix2 i q)
      = entry (fun l => h (ix2 i l)) w1 b1 w2 b2 q := by
  rw [addf_apply, broadcastTo_1b_ab_apply, shapeCast_a_1a_apply]
  simp only [matmul]
  rw [matmul_plain_apply]
  unfold entry
  refine congrArg (· + b2 (ix1 q)) (Finset.sum_congr rfl fun k _ => ?_)
  rw [truncf_apply, maximumf_apply, addf_apply, broadcastTo_1b_ab_apply, shapeCast_a_1a_apply, matmul_plain_apply,
    shapeCast_self, shapeCast_self, shapeCast_self]
  rfl

/-- THE HOST'S ARRANGEMENT: both products `dot_general`s, each bias broadcast in dimensions to a `1 × 256` row and then
    down the rows, the rectifier against a zero broadcast from a scalar. -/
theorem host_form_apply (n : ℕ) (h : FVec Ideal ⟨2, ![n, 256]⟩ .f32) (w1 : FVec Ideal ⟨2, ![256, 256]⟩ .f32)
    (b1 : FVec Ideal ⟨1, ![256]⟩ .f32) (w2 : FVec Ideal ⟨2, ![256, 256]⟩ .f32) (b2 : FVec Ideal ⟨1, ![256]⟩ .f32)
    (hb : (⟨1, ![256]⟩ : Shape).BroadcastsInDim ⟨2, ![1, 256]⟩ ![1])
    (hbb : (⟨2, ![1, 256]⟩ : Shape).BroadcastsInDim ⟨2, ![n, 256]⟩ ![0, 1])
    (hz : (⟨0, ![]⟩ : Shape).BroadcastsInDim ⟨2, ![n, 256]⟩ ![]) (i : Fin n) (q : Fin 256) :
    addf (Host.dotGeneral (DotDims.plain n 256 256) none
            (maximumf (addf (Host.dotGeneral (DotDims.plain n 256 256) none h w1)
                            (broadcastInDim ⟨2, ![n, 256]⟩ ![0, 1] hbb (broadcastInDim ⟨2, ![1, 256]⟩ ![1] hb b1)))
                      (broadcastInDim ⟨2, ![n, 256]⟩ ![] hz (constant (F := Ideal) ⟨0, ![]⟩ .f32 0x00000000#32)))
            w2)
         (broadcastInDim ⟨2, ![n, 256]⟩ ![0, 1] hbb (broadcastInDim ⟨2, ![1, 256]⟩ ![1] hb b2)) (ix2 i q)
      = entry (fun l => h (ix2 i l)) w1 b1 w2 b2 q := by
  have bias : ∀ (b : FVec Ideal ⟨1, ![256]⟩ .f32) (p : Fin n) (c : Fin 256),
      broadcastInDim ⟨2, ![n, 256]⟩ ![0, 1] hbb (broadcastInDim ⟨2, ![1, 256]⟩ ![1] hb b) (ix2 p c) = b (ix1 c) := by
    intro b p c
    rw [broadcastInDim_apply ![0, 1] hbb _ (ix2 p c) (ix2 (0 : Fin 1) c) (fun a => by
      match a with
      | ⟨0, _⟩ => rfl
      | ⟨1, _⟩ => show c.val = if (256 : ℕ) = 1 then 0 else c.val; rw [if_neg (by decide)])]
    exact broadcastInDim_apply ![1] hb b (ix2 (0 : Fin 1) c) (ix1 c) (fun a => by
      match a with
      | ⟨0, _⟩ => show c.val = if (256 : ℕ) = 1 then 0 else c.val; rw [if_neg (by decide)])
  rw [addf_apply, bias]
  simp only [Host.dotGeneral]
  rw [dotGeneral_plain_apply]
  unfold entry
  refine congrArg (· + b2 (ix1 q)) (Finset.sum_congr rfl fun k _ => ?_)
  rw [maximumf_apply, addf_apply, bias, dotGeneral_plain_apply]
  rfl

end Cert.LibMlp
-- ==== Proof.Region0.lean ====
/-
  What the first region leaves in its output array, for ANY contents `V` the region is entered at: each grid point
  `t` reads rows `4000 t … 4000 t + 3999` of the activations and the whole of both weight matrices and biases, and
  writes the two-layer perceptron of those rows back to the same rows of the result; the eighty blocks tile the
  `320000 × 256` result, so the array ends holding the perceptron of every row.
-/
import proofs.«106032_j79688823210541_1_alg».proof.Proof.Gen.KernelIdeal.Frame
import proofs.«106032_j79688823210541_1_alg».proof.Proof.LibMlp
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LibMlp

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's one store writes the perceptron of its loaded block of rows. -/
theorem payload_eq (x0 : Vec Ideal S4000x256 .bf16) (x1 : Vec Ideal S256x256 .bf16) (x2 : Vec Ideal S256 .f32)
    (x3 : Vec Ideal S256x256 .bf16) (x4 : Vec Ideal S256 .f32) :
    k0_pay1 x0 x1 x2 x3 x4 = rows 4000 x0 x1 x2 x3 x4 := by
  funext j
  obtain ⟨i, q, rfl⟩ : ∃ (i : Fin 4000) (q : Fin 256), j = ix2 i q := ⟨j 0, j 1, eq_ix2 j⟩
  rw [rows_apply]
  unfold k0_pay1
  exact unit_form_apply 4000 x0 x1 x2 x3 x4 _ _ _ _ _ i q

/-- The printed index maps over the eighty points: the activations' and the result's block index is the point on the row
    axis, every other index zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem t_lt (t : Fin cfg0.N) : t.val < 80 := lt_of_lt_of_eq t.isLt N_0

/-- The activations' block at point `t` is rows `4000 t + p` of the array. -/
theorem acts_apply (c : Dev nD) (t : Fin cfg0.N) (p : Fin 4000) (l : Fin 256) :
    (iblk0 V c 0 t : Vec Ideal S4000x256 .bf16) (ix2 p l)
      = (V c main_v13 : S320000x256.Idx → EReal) (ix2 (⟨t.val * 4000 + p.val, by have := t_lt t; have := p.isLt; omega⟩ : Fin 320000) l) := by
  obtain ⟨e0, e1, -⟩ := idx_facts t
  show (V c main_v13 : S320000x256.Idx → EReal) (((cfg0.win 0).blk t).view.emb (ix2 p l)) = _
  refine congrArg _ (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 256 + 1 * l.val = l.val; rw [e1]; omega

/-- A weight matrix's one block is the whole matrix. -/
theorem w1_eq (c : Dev nD) (t : Fin cfg0.N) : (iblk0 V c 1 t : Vec Ideal S256x256 .bf16) = (V c main_v4 : S256x256.Idx → EReal) := by
  obtain ⟨-, -, e0, e1, -⟩ := idx_facts t
  funext y
  show (V c main_v4 : S256x256.Idx → EReal) (((cfg0.win 1).blk t).view.emb y) = _
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

theorem b1_eq (c : Dev nD) (t : Fin cfg0.N) : (iblk0 V c 2 t : Vec Ideal S256 .f32) = (V c main_arg3 : S256.Idx → EReal) := by
  obtain ⟨-, -, -, -, e0, -⟩ := idx_facts t
  funext y
  show (V c main_arg3 : S256.Idx → EReal) (((cfg0.win 2).blk t).view.emb y) = _
  refine congrArg _ (funext fun a => Fin.ext ?_)
  match a with
  | ⟨0, _⟩ => show win0_2.index t (0 : Fin 1) * 256 + 1 * (y 0).val = (y 0).val; rw [e0]; omega

theorem w2_eq (c : Dev nD) (t : Fin cfg0.N) : (iblk0 V c 3 t : Vec Ideal S256x256 .bf16) = (V c main_v5 : S256x256.Idx → EReal) := by
  obtain ⟨-, -, -, -, -, e0, e1, -⟩ := idx_facts t
  funext y
  show (V c main_v5 : S256x256.Idx → EReal) (((cfg0.win 3).blk t).view.emb y) = _
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem b2_eq (c : Dev nD) (t : Fin cfg0.N) : (iblk0 V c 4 t : Vec Ideal S256 .f32) = (V c main_arg5 : S256.Idx → EReal) := by
  obtain ⟨-, -, -, -, -, -, -, e0, -⟩ := idx_facts t
  funext y
  show (V c main_arg5 : S256.Idx → EReal) (((cfg0.win 4).blk t).view.emb y) = _
  refine congrArg _ (funext fun a => Fin.ext ?_)
  match a with
  | ⟨0, _⟩ => show win0_4.index t (0 : Fin 1) * 256 + 1 * (y 0).val = (y 0).val; rw [e0]; omega

/-- The whole result: the perceptron of every row of the activations as the region finds them. -/
abbrev result (c : Dev nD) : S320000x256.Idx → EReal :=
  rows 320000 (V c main_v13) (V c main_v4) (V c main_arg3) (V c main_v5) (V c main_arg5)

/-- WHAT POINT `t` WRITES BACK is block `t` of the whole result. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz2]
  simp only [View.ld_unit_zero (S := S4000x256) hz2, View.ld_unit_zero (S := S256x256) hz2, View.ld_unit_zero (S := S256) hz1]
  rw [payload_eq, w1_eq, b1_eq, w2_eq, b2_eq]
  obtain ⟨-, -, -, -, -, -, -, -, e0, e1⟩ := idx_facts t
  funext j
  obtain ⟨p, q, rfl⟩ : ∃ (p : Fin 4000) (q : Fin 256), j = ix2 p q := ⟨j 0, j 1, eq_ix2 j⟩
  show rows 4000 (iblk0 V c 0 t) (V c main_v4) (V c main_arg3) (V c main_v5) (V c main_arg5) (ix2 p q)
    = result V c (((cfg0.win 5).blk t).view.emb (ix2 p q))
  have he : ((cfg0.win 5).blk t).view.emb (ix2 p q)
      = (ix2 (⟨t.val * 4000 + p.val, by have := t_lt t; have := p.isLt; omega⟩ : Fin 320000) q : S320000x256.Idx) := by
    funext a; apply Fin.ext
    match a with
    | ⟨0, _⟩ => show win0_5.index t (0 : Fin 2) * 4000 + 1 * p.val = t.val * 4000 + p.val; rw [e0]; omega
    | ⟨1, _⟩ => show win0_5.index t (1 : Fin 2) * 256 + 1 * q.val = q.val; rw [e1]; omega
  rw [he, rows_apply]
  show _ = rows 320000 (V c main_v13) (V c main_v4) (V c main_arg3) (V c main_v5) (V c main_arg5) (ix2 _ q)
  rw [rows_apply]
  refine congrArg (fun f => entry f _ _ _ _ q) (funext fun l => ?_)
  exact acts_apply V c t p l

/-- An index of the result is in point `t`'s block iff each coordinate is in the block's range on its axis. -/
theorem mem_blk (t : Fin cfg0.N) (i : S320000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v14).slice (win0_5.rect t)).set ↔ _
  rw [View.set_slice_whole, Rect.mem_set_unit]
  exact Iff.rfl

/-- Every row of the result is in the block of the point `row / 4000`. -/
theorem cover (i : S320000x256.Idx) : ∃ t : Fin cfg0.N, (cfg0.win 5).flush t = true ∧ i ∈ ((cfg0.win 5).blk t).view.set := by
  have hi0 : (i 0).val < 320000 := (i 0).isLt
  have hi1 : (i 1).val < 256 := (i 1).isLt
  let t : Fin cfg0.N := ⟨(i 0).val / 4000, by rw [show cfg0.N = 80 from N_0]; omega⟩
  obtain ⟨-, -, -, -, -, -, -, -, e0, e1⟩ := idx_facts t
  refine ⟨t, flush0_5 t, ?_⟩
  rw [mem_blk]
  intro a
  match a with
  | ⟨0, _⟩ =>
    show win0_5.index t (0 : Fin 2) * 4000 ≤ (i 0).val ∧ (i 0).val < win0_5.index t (0 : Fin 2) * 4000 + 4000
    rw [e0]; show (i 0).val / 4000 * 4000 ≤ (i 0).val ∧ (i 0).val < (i 0).val / 4000 * 4000 + 4000; omega
  | ⟨1, _⟩ =>
    show win0_5.index t (1 : Fin 2) * 256 ≤ (i 1).val ∧ (i 1).val < win0_5.index t (1 : Fin 2) * 256 + 256
    rw [e1]; omega

/-- THE RESULT ARRAY after the region: the perceptron of every row. -/
theorem final (c : Dev nD) : (dat0 V c).arrAt 5 cfg0.N = result V c :=
  (dat0 V c).arrAt_eq_of_cover 5 (result V c) (fun t _ => flushed_eq V c t) (cover)

end Cert.KernelIdeal.Region0

end
-- ==== Proof.Region1.lean ====
/-
  What the second region leaves in its output array, for ANY contents `V` the region is entered at: each grid point
  `t` reads rows `2000 t … 2000 t + 1999` of the activations and the whole of both weight matrices and biases, and
  writes the two-layer perceptron of those rows back to the same rows of the result; the five blocks tile the
  `10000 × 256` result, so the array ends holding the perceptron of every row.
-/
import proofs.«106032_j79688823210541_1_alg».proof.Proof.Gen.KernelIdeal.Frame
import proofs.«106032_j79688823210541_1_alg».proof.Proof.LibMlp
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LibMlp

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's one store writes the perceptron of its loaded block of rows. -/
theorem payload_eq (x0 : Vec Ideal S2000x256 .bf16) (x1 : Vec Ideal S256x256 .bf16) (x2 : Vec Ideal S256 .f32)
    (x3 : Vec Ideal S256x256 .bf16) (x4 : Vec Ideal S256 .f32) :
    k1_pay1 x0 x1 x2 x3 x4 = rows 2000 x0 x1 x2 x3 x4 := by
  funext j
  obtain ⟨i, q, rfl⟩ : ∃ (i : Fin 2000) (q : Fin 256), j = ix2 i q := ⟨j 0, j 1, eq_ix2 j⟩
  rw [rows_apply]
  unfold k1_pay1
  exact unit_form_apply 2000 x0 x1 x2 x3 x4 _ _ _ _ _ i q

/-- The printed index maps over the five points: the activations' and the result's block index is the point on the row
    axis, every other index zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem t_lt (t : Fin cfg1.N) : t.val < 5 := lt_of_lt_of_eq t.isLt N_1

/-- The activations' block at point `t` is rows `2000 t + p` of the array. -/
theorem acts_apply (c : Dev nD) (t : Fin cfg1.N) (p : Fin 2000) (l : Fin 256) :
    (iblk1 V c 0 t : Vec Ideal S2000x256 .bf16) (ix2 p l)
      = (V c main_v19 : S10000x256.Idx → EReal) (ix2 (⟨t.val * 2000 + p.val, by have := t_lt t; have := p.isLt; omega⟩ : Fin 10000) l) := by
  obtain ⟨e0, e1, -⟩ := idx_facts t
  show (V c main_v19 : S10000x256.Idx → EReal) (((cfg1.win 0).blk t).view.emb (ix2 p l)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * l.val = l.val; rw [e1]; omega

/-- A weight matrix's one block is the whole matrix. -/
theorem w1_eq (c : Dev nD) (t : Fin cfg1.N) : (iblk1 V c 1 t : Vec Ideal S256x256 .bf16) = (V c main_v4 : S256x256.Idx → EReal) := by
  obtain ⟨-, -, e0, e1, -⟩ := idx_facts t
  funext y
  show (V c main_v4 : S256x256.Idx → EReal) (((cfg1.win 1).blk t).view.emb y) = _
  refine congrArg _ (funext fun a => Fin.ext ?_)
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

theorem b1_eq (c : Dev nD) (t : Fin cfg1.N) : (iblk1 V c 2 t : Vec Ideal S256 .f32) = (V c main_arg3 : S256.Idx → EReal) := by
  obtain ⟨-, -, -, -, e0, -⟩ := idx_facts t
  funext y
  show (V c main_arg3 : S256.Idx → EReal) (((cfg1.win 2).blk t).view.emb y) = _
  refine congrArg _ (funext fun a => Fin.ext ?_)
  match a with
  | ⟨0, _⟩ => show win1_2.index t (0 : Fin 1) * 256 + 1 * (y 0).val = (y 0).val; rw [e0]; omega

theorem w2_eq (c : Dev nD) (t : Fin cfg1.N) : (iblk1 V c 3 t : Vec Ideal S256x256 .bf16) = (V c main_v5 : S256x256.Idx → EReal) := by
  obtain ⟨-, -, -, -, -, e0, e1, -⟩ := idx_facts t
  funext y
  show (V c main_v5 : S256x256.Idx → EReal) (((cfg1.win 3).blk t).view.emb y) = _
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

theorem b2_eq (c : Dev nD) (t : Fin cfg1.N) : (iblk1 V c 4 t : Vec Ideal S256 .f32) = (V c main_arg5 : S256.Idx → EReal) := by
  obtain ⟨-, -, -, -, -, -, -, e0, -⟩ := idx_facts t
  funext y
  show (V c main_arg5 : S256.Idx → EReal) (((cfg1.win 4).blk t).view.emb y) = _
  refine congrArg _ (funext fun a => Fin.ext ?_)
  match a with
  | ⟨0, _⟩ => show win1_4.index t (0 : Fin 1) * 256 + 1 * (y 0).val = (y 0).val; rw [e0]; omega

/-- The whole result: the perceptron of every row of the activations as the region finds them. -/
abbrev result (c : Dev nD) : S10000x256.Idx → EReal :=
  rows 10000 (V c main_v19) (V c main_v4) (V c main_arg3) (V c main_v5) (V c main_arg5)

/-- WHAT POINT `t` WRITES BACK is block `t` of the whole result. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  rw [payload_eq, w1_eq, b1_eq, w2_eq, b2_eq]
  obtain ⟨-, -, -, -, -, -, -, -, e0, e1⟩ := idx_facts t
  funext j
  obtain ⟨p, q, rfl⟩ : ∃ (p : Fin 2000) (q : Fin 256), j = ix2 p q := ⟨j 0, j 1, eq_ix2 j⟩
  show rows 2000 (iblk1 V c 0 t) (V c main_v4) (V c main_arg3) (V c main_v5) (V c main_arg5) (ix2 p q)
    = result V c (((cfg1.win 5).blk t).view.emb (ix2 p q))
  have he : ((cfg1.win 5).blk t).view.emb (ix2 p q)
      = (ix2 (⟨t.val * 2000 + p.val, by have := t_lt t; have := p.isLt; omega⟩ : Fin 10000) q : S10000x256.Idx) := by
    funext a; apply Fin.ext
    match a with
    | ⟨0, _⟩ => show win1_5.index t (0 : Fin 2) * 2000 + 1 * p.val = t.val * 2000 + p.val; rw [e0]; omega
    | ⟨1, _⟩ => show win1_5.index t (1 : Fin 2) * 256 + 1 * q.val = q.val; rw [e1]; omega
  rw [he, rows_apply]
  show _ = rows 10000 (V c main_v19) (V c main_v4) (V c main_arg3) (V c main_v5) (V c main_arg5) (ix2 _ q)
  rw [rows_apply]
  refine congrArg (fun f => entry f _ _ _ _ q) (funext fun l => ?_)
  exact acts_apply V c t p l

/-- An index of the result is in point `t`'s block iff each coordinate is in the block's range on its axis. -/
theorem mem_blk (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v20).slice (win1_5.rect t)).set ↔ _
  rw [View.set_slice_whole, Rect.mem_set_unit]
  exact Iff.rfl

/-- Every row of the result is in the block of the point `row / 2000`. -/
theorem cover (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  let t : Fin cfg1.N := ⟨(i 0).val / 2000, by rw [show cfg1.N = 5 from N_1]; omega⟩
  obtain ⟨-, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0]; show (i 0).val / 2000 * 2000 ≤ (i 0).val ∧ (i 0).val < (i 0).val / 2000 * 2000 + 2000; omega
  | ⟨1, _⟩ =>
    show win1_5.index t (1 : Fin 2) * 256 ≤ (i 1).val ∧ (i 1).val < win1_5.index t (1 : Fin 2) * 256 + 256
    rw [e1]; omega

/-- THE RESULT ARRAY after the region: the perceptron of every row. -/
theorem final (c : Dev nD) : (dat1 V c).arrAt 5 cfg1.N = result V c :=
  (dat1 V c).arrAt_eq_of_cover 5 (result V c) (fun t _ => flushed_eq V c t) (cover)

end Cert.KernelIdeal.Region1

end
-- ==== Proof.Net.lean ====
/-
  The whole computation as one function of the six arguments, at the extended reals: gather the source nodes' feature
  rows (a negative source index wrapped by the node count), apply the two-layer perceptron to every edge's row, sum
  the messages into their destination nodes, add the node features, and apply the same perceptron to every node's row.
-/
import proofs.«106032_j79688823210541_1_alg».proof.Proof.Gen.KernelIdeal
import proofs.«106032_j79688823210541_1_alg».proof.Proof.LibMlp

noncomputable section

open Idealize.ShloMosaic Idealize.ShloMosaic.TcCoe

namespace Cert.KernelIdeal.Net

open Cert.KernelIdeal Cert.KernelIdeal.Gen Cert.LibMlp

variable {F : FTy → Type} [FloatOps F]

/-- Row 0 of the edge list (the destination nodes) as a flat vector of node numbers. -/
abbrev edgeRow0 (x1 : (⟨S2x320000, .i32⟩ : BufTy).Contents (Elt F)) : (⟨S320000, .i32⟩ : BufTy).Contents (Elt F) :=
  shapeCast _ (extractStridedSlice S1x320000 ![0, 0] x1 slices_S2x320000_S1x320000_0_0) shapeCasts_S1x320000_S320000
/-- Row 1 of the edge list (the source nodes). -/
abbrev edgeRow1 (x1 : (⟨S2x320000, .i32⟩ : BufTy).Contents (Elt F)) : (⟨S320000, .i32⟩ : BufTy).Contents (Elt F) :=
  shapeCast _ (extractStridedSlice S1x320000 ![1, 0] x1 slices_S2x320000_S1x320000_1_0) shapeCasts_S1x320000_S320000

/-- The source nodes' feature rows: the gather at the wrapped source indices. -/
def gathered (x0 : (⟨S10000x256, .f32⟩ : BufTy).Contents (Elt F)) (x1 : (⟨S2x320000, .i32⟩ : BufTy).Contents (Elt F)) :
    (⟨S320000x256, .f32⟩ : BufTy).Contents (Elt F) :=
  Host.gather gather_S10000x256_S320000x1_S320000x256_1_0_n_n_0_1_1256 x0
    (broadcastInDim S320000x1 ![0] bcast_S320000_S320000x1_0
      (select (cmpi .slt (edgeRow1 (F := F) x1) (broadcastInDim S320000 ![] bcast_S_S320000 (constantI S_ 32 0#32)))
        (addi (edgeRow1 (F := F) x1) (broadcastInDim S320000 ![] bcast_S_S320000 (constantI S_ 32 10000#32))) (edgeRow1 (F := F) x1)))

/-- The messages summed into their destination nodes, from zero. -/
def aggregated (x1 : (⟨S2x320000, .i32⟩ : BufTy).Contents (Elt F)) (u : (⟨S320000x256, .f32⟩ : BufTy).Contents (Elt F)) :
    (⟨S10000x256, .f32⟩ : BufTy).Contents (Elt F) :=
  Host.scatterAdd scatter_S10000x256_S320000x1_S320000x256_1_0_0_1 (broadcastInDim S10000x256 ![] bcast_S_S10000x256 (constant S_ .f32 0x00000000#32))
    (broadcastInDim S320000x1 ![0] bcast_S320000_S320000x1_0 (edgeRow0 (F := F) x1)) u

/-- The network: perceptron on the gathered rows, aggregation, residual, perceptron again. -/
def net (x0 : FVec Ideal S10000x256 .f32) (x1 : IVec S2x320000 32) (w1 : FVec Ideal S256x256 .f32) (b1 : FVec Ideal S256 .f32)
    (w2 : FVec Ideal S256x256 .f32) (b2 : FVec Ideal S256 .f32) : FVec Ideal S10000x256 .f32 :=
  rows 10000 (addf x0 (aggregated (F := Ideal) x1 (rows 320000 (gathered (F := Ideal) x0 x1) w1 b1 w2 b2))) w1 b1 w2 b2

end Cert.KernelIdeal.Net

end
-- ==== Proof.Boundary.lean ====
/-
  The contents of the buffers the two regions read, at each region's entry, as terms of the launch memory: before the
  first region the host narrows both weight matrices, builds the source-node indices (negative ones wrapped by the node
  count) and gathers the source nodes' feature rows; between the regions it scatter-adds the first region's messages
  into the destination nodes, adds the node features and narrows the sum.
-/
import proofs.«106032_j79688823210541_1_alg».proof.Proof.Gen.KernelIdeal.Frame
import proofs.«106032_j79688823210541_1_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundary

open Cert.KernelIdeal Cert.KernelIdeal.Gen Cert.KernelIdeal.Net

variable {F : FTy → Type} [FloatOps F]
variable (m : (ℓ : Loc nD τ sig) → Buf (Elt F) ℓ) (ρ : Dev nD → PrngReg)

/-! ## At the first region's entry -/

theorem entry0_acts (c : Dev nD) : V1 m ρ c main_v13
    = truncf .bf16 (gathered (F := F) (m ((c : Thread nD τ).loc main_arg0)) (m ((c : Thread nD τ).loc main_arg1))) bitsLt_bf16_f32 := by
  show StableHlo.after hostOps0 (W0 m ρ c) (Proc.devRef .tc main_v13) = _
  after_results; rfl

theorem entry0_w1 (c : Dev nD) : V1 m ρ c main_v4 = truncf .bf16 (m ((c : Thread nD τ).loc main_arg2)) bitsLt_bf16_f32 := by
  show StableHlo.after hostOps0 (W0 m ρ c) (Proc.devRef .tc main_v4) = _
  after_results

theorem entry0_w2 (c : Dev nD) : V1 m ρ c main_v5 = truncf .bf16 (m ((c : Thread nD τ).loc main_arg4)) bitsLt_bf16_f32 := by
  show StableHlo.after hostOps0 (W0 m ρ c) (Proc.devRef .tc main_v5) = _
  after_results

theorem entry0_b1 (c : Dev nD) : V1 m ρ c main_arg3 = m ((c : Thread nD τ).loc main_arg3) := by
  show StableHlo.after hostOps0 (W0 m ρ c) (Proc.devRef .tc main_arg3) = _
  after_results

theorem entry0_b2 (c : Dev nD) : V1 m ρ c main_arg5 = m ((c : Thread nD τ).loc main_arg5) := by
  show StableHlo.after hostOps0 (W0 m ρ c) (Proc.devRef .tc main_arg5) = _
  after_results

theorem entry0_x (c : Dev nD) : V1 m ρ c main_arg0 = m ((c : Thread nD τ).loc main_arg0) := by
  show StableHlo.after hostOps0 (W0 m ρ c) (Proc.devRef .tc main_arg0) = _
  after_results

theorem entry0_rows (c : Dev nD) : V1 m ρ c main_v1 = edgeRow0 (F := F) (m ((c : Thread nD τ).loc main_arg1)) := by
  show StableHlo.after hostOps0 (W0 m ρ c) (Proc.devRef .tc main_v1) = _
  after_results; rfl

/-! ## At the second region's entry -/

theorem entry1_acts (c : Dev nD) : V3 m ρ c main_v19
    = truncf .bf16 (addf (m ((c : Thread nD τ).loc main_arg0))
        (aggregated (F := F) (m ((c : Thread nD τ).loc main_arg1)) ((dat0 (V1 m ρ) c).arrAt 5 cfg0.N))) bitsLt_bf16_f32 := by
  show StableHlo.after hostOps1 (W2 m ρ c) (Proc.devRef .tc main_v19) = _
  after_results
  rw [W2_arr m ρ c 5, W2_of_ne m ρ c main_arg0 (by decide), W2_of_ne m ρ c main_v1 (by decide)]
  show truncf .bf16 (addf (V1 m ρ c main_arg0) (Host.scatterAdd _ _ (broadcastInDim S320000x1 ![0] bcast_S320000_S320000x1_0 (V1 m ρ c main_v1)) _)) _ = _
  rw [entry0_x, entry0_rows]
  rfl

/-- An input window's array leaves the first region as it entered it. -/
theorem kept0 (c : Dev nD) (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem entry1_w1 (c : Dev nD) : V3 m ρ c main_v4 = truncf .bf16 (m ((c : Thread nD τ).loc main_arg2)) bitsLt_bf16_f32 := by
  show StableHlo.after hostOps1 (W2 m ρ c) (Proc.devRef .tc main_v4) = _
  after_results
  exact (kept0 m ρ c 1 rfl).trans (entry0_w1 m ρ c)

theorem entry1_b1 (c : Dev nD) : V3 m ρ c main_arg3 = m ((c : Thread nD τ).loc main_arg3) := by
  show StableHlo.after hostOps1 (W2 m ρ c) (Proc.devRef .tc main_arg3) = _
  after_results
  exact (kept0 m ρ c 2 rfl).trans (entry0_b1 m ρ c)

theorem entry1_w2 (c : Dev nD) : V3 m ρ c main_v5 = truncf .bf16 (m ((c : Thread nD τ).loc main_arg4)) bitsLt_bf16_f32 := by
  show StableHlo.after hostOps1 (W2 m ρ c) (Proc.devRef .tc main_v5) = _
  after_results
  exact (kept0 m ρ c 3 rfl).trans (entry0_w2 m ρ c)

theorem entry1_b2 (c : Dev nD) : V3 m ρ c main_arg5 = m ((c : Thread nD τ).loc main_arg5) := by
  show StableHlo.after hostOps1 (W2 m ρ c) (Proc.devRef .tc main_arg5) = _
  after_results
  exact (kept0 m ρ c 4 rfl).trans (entry0_b2 m ρ c)

end Cert.KernelIdeal.Boundary

end
-- ==== Proof.KernelValue.lean ====
/-
  The idealized kernel program's result is the network of its arguments: the second region leaves the perceptron of
  its activations, which the host built from the first region's perceptron of the gathered rows; the narrowing
  conversions on the way are the identity on extended reals.
-/
import proofs.«106032_j79688823210541_1_alg».proof.Proof.NamedRun
import proofs.«106032_j79688823210541_1_alg».proof.Proof.Region0
import proofs.«106032_j79688823210541_1_alg».proof.Proof.Region1
import proofs.«106032_j79688823210541_1_alg».proof.Proof.Boundary

set_option maxRecDepth 16384

noncomputable section

open Idealize.ShloMosaic Idealize.ShloMosaic.TcCoe Idealize.SL.Sem

namespace Cert.KernelIdeal.Whole

open Cert.KernelIdeal Cert.KernelIdeal.Gen Cert.KernelIdeal.Net Cert.KernelIdeal.Boundary Cert.LibMlp

variable (m : (ℓ : Loc nD τ sig) → Buf (Elt Ideal) ℓ) (ρ : Dev nD → PrngReg)

/-- A narrowing conversion is the identity on extended reals. -/
theorem narrow_id {s : Shape} {φ ψ : FTy} (y : FVec Ideal s φ) (h : ψ.bits < φ.bits) : (truncf ψ y h : s.Idx → EReal) = y := rfl

/-- What the first region leaves in the message array: the perceptron of the gathered source rows. -/
theorem messages_eq (c : Dev nD) : (dat0 (V1 m ρ) c).arrAt 5 cfg0.N
    = rows 320000 (gathered (F := Ideal) (m ((c : Thread nD τ).loc main_arg0)) (m ((c : Thread nD τ).loc main_arg1)))
        (m ((c : Thread nD τ).loc main_arg2)) (m ((c : Thread nD τ).loc main_arg3)) (m ((c : Thread nD τ).loc main_arg4)) (m ((c : Thread nD τ).loc main_arg5)) := by
  rw [Region0.final (V1 m ρ) c]
  show rows 320000 (V1 m ρ c main_v13) (V1 m ρ c main_v4) (V1 m ρ c main_arg3) (V1 m ρ c main_v5) (V1 m ρ c main_arg5) = _
  rw [entry0_acts, entry0_w1, entry0_b1, entry0_w2, entry0_b2]
  simp only [narrow_id]

/-- What the second region leaves in the result array, as the network of the launch memory's arguments. -/
theorem result_eq (c : Dev nD) : (dat1 (V3 m ρ) c).arrAt 5 cfg1.N
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [Region1.final (V3 m ρ) c]
  show rows 10000 (V3 m ρ c main_v19) (V3 m ρ c main_v4) (V3 m ρ c main_arg3) (V3 m ρ c main_v5) (V3 m ρ c main_arg5) = _
  rw [entry1_acts, entry1_w1, entry1_b1, entry1_w2, entry1_b2, messages_eq]
  simp only [narrow_id]
  rfl

/-- The run with the result at the network of the arguments, the arguments unchanged. -/
theorem run : θ_run defs (onTc (τ := τ) (main (F := Ideal))) ⟨m, fun _ => 0, ρ⟩ (fun r => ∀ c : Dev nD,
      r.2.mem ((c.tc : Thread nD τ).loc main_v20)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (Cert.KernelIdeal.Named.run (F := Ideal) m ρ)

end Cert.KernelIdeal.Whole

end
-- ==== Proof.RefValue.lean ====
/-
  The idealized reference's result is the same network of its arguments: each of its two perceptrons, written as host
  products with the biases broadcast in dimensions and the rectifier's zero broadcast from a scalar, is the perceptron
  of every row; the gather and the aggregation are the very operations the network is written with.
-/
import proofs.«106032_j79688823210541_1_alg».proof.Proof.Gen.ReferenceIdeal.Run
import proofs.«106032_j79688823210541_1_alg».proof.Proof.Net

set_option maxRecDepth 16384

noncomputable section

open Idealize.ShloMosaic Idealize.ShloMosaic.TcCoe Idealize.SL.Sem Idealize.ShloMosaic.ValueIdx

namespace Cert.ReferenceIdeal.Whole

open Cert.ReferenceIdeal Cert.ReferenceIdeal.Gen Cert.LibMlp

/-- The perceptron over the 320000 edge rows, in the host's arrangement. -/
theorem edges_eq (h : FVec Ideal S320000x256 .f32) (w1 : FVec Ideal S256x256 .f32) (b1 : FVec Ideal S256 .f32)
    (w2 : FVec Ideal S256x256 .f32) (b2 : FVec Ideal S256 .f32) :
    addf (Host.dotGeneral dot_S320000x256_S256x256_S320000x256_1_0_0_1_n_n none
            (maximumf (addf (Host.dotGeneral dot_S320000x256_S256x256_S320000x256_1_0_0_1_n_n none h w1)
                            (broadcastInDim S320000x256 ![0, 1] bcast_S1x256_S320000x256_0_1 (broadcastInDim S1x256 ![1] bcast_S256_S1x256_1 b1)))
                      (broadcastInDim S320000x256 ![] bcast_S_S320000x256 (constant S_ .f32 0x00000000#32)))
            w2)
         (broadcastInDim S320000x256 ![0, 1] bcast_S1x256_S320000x256_0_1 (broadcastInDim S1x256 ![1] bcast_S256_S1x256_1 b2))
      = rows 320000 h w1 b1 w2 b2 := by
  funext j
  obtain ⟨i, q, rfl⟩ : ∃ (i : Fin 320000) (q : Fin 256), j = ix2 i q := ⟨j 0, j 1, eq_ix2 j⟩
  rw [rows_apply]
  exact host_form_apply 320000 h w1 b1 w2 b2 _ _ _ i q

/-- The perceptron over the 10000 node rows, in the host's arrangement. -/
theorem nodes_eq (h : FVec Ideal S10000x256 .f32) (w1 : FVec Ideal S256x256 .f32) (b1 : FVec Ideal S256 .f32)
    (w2 : FVec Ideal S256x256 .f32) (b2 : FVec Ideal S256 .f32) :
    addf (Host.dotGeneral dot_S10000x256_S256x256_S10000x256_1_0_0_1_n_n none
            (maximumf (addf (Host.dotGeneral dot_S10000x256_S256x256_S10000x256_1_0_0_1_n_n none h w1)
                            (broadcastInDim S10000x256 ![0, 1] bcast_S1x256_S10000x256_0_1 (broadcastInDim S1x256 ![1] bcast_S256_S1x256_1 b1)))
                      (broadcastInDim S10000x256 ![] bcast_S_S10000x256 (constant S_ .f32 0x00000000#32)))
            w2)
         (broadcastInDim S10000x256 ![0, 1] bcast_S1x256_S10000x256_0_1 (broadcastInDim S1x256 ![1] bcast_S256_S1x256_1 b2))
      = rows 10000 h w1 b1 w2 b2 := by
  funext j
  obtain ⟨i, q, rfl⟩ : ∃ (i : Fin 10000) (q : Fin 256), j = ix2 i q := ⟨j 0, j 1, eq_ix2 j⟩
  rw [rows_apply]
  exact host_form_apply 10000 h w1 b1 w2 b2 _ _ _ i q

variable (m : (ℓ : Loc nD τ sig) → Buf (Elt Ideal) ℓ) (ρ : Dev nD → PrngReg)

/-- The reference's run with its result at the network of the arguments, the arguments unchanged. -/
theorem run : θ_run defs (onTc (τ := τ) (main (F := Ideal))) ⟨m, fun _ => 0, ρ⟩ (fun r => ∀ c : Dev nD,
      r.2.mem ((c.tc : Thread nD τ).loc main_v32)
        = Cert.KernelIdeal.Net.net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (by rw [edges_eq, nodes_eq]; rfl), (h c).2⟩)
    (Cert.ReferenceIdeal.Value.run (F := Ideal) m ρ)

end Cert.ReferenceIdeal.Whole

end
-- ==== Proof.lean ====
/- The two programs compute one network. At the extended reals the kernel program gathers the source nodes' feature
   rows on the host, applies a two-layer perceptron to every edge's row in its first region (80 blocks of 4000 rows),
   sums the messages into their destination nodes and adds the node features on the host, and applies the same
   perceptron to every node's row in its second region (5 blocks of 2000 rows); the reference does the same with host
   products. A matrix unit's product into a zero accumulator and a host product are the same sum over the contraction,
   the narrowing conversions are the identity, and the bias broadcasts read the same bias entry: both results are
   `Net.net` of the arguments. No algebraic law beyond that identification is needed, so finiteness is not used.
   The frames of the two kernel programs are the generated ones; the reference's frame is its generated run. -/
import proofs.«106032_j79688823210541_1_alg».proof.Defs
import proofs.«106032_j79688823210541_1_alg».proof.Proof.Gen.Kernel
import proofs.«106032_j79688823210541_1_alg».proof.Proof.Gen.Kernel.Skeleton
import proofs.«106032_j79688823210541_1_alg».proof.Proof.Gen.Kernel.Launch
import proofs.«106032_j79688823210541_1_alg».proof.Proof.Gen.Kernel.Points
import proofs.«106032_j79688823210541_1_alg».proof.Proof.Gen.Kernel.Frame
import proofs.«106032_j79688823210541_1_alg».proof.Proof.Gen.KernelIdeal
import proofs.«106032_j79688823210541_1_alg».proof.Proof.Gen.KernelIdeal.Skeleton
import proofs.«106032_j79688823210541_1_alg».proof.Proof.Gen.KernelIdeal.Launch
import proofs.«106032_j79688823210541_1_alg».proof.Proof.Gen.KernelIdeal.Points
import proofs.«106032_j79688823210541_1_alg».proof.Proof.Gen.KernelIdeal.Frame
import proofs.«106032_j79688823210541_1_alg».proof.Proof.Gen.ReferenceIdeal
import proofs.«106032_j79688823210541_1_alg».proof.Proof.Gen.Pre_finite_inputs
import proofs.«106032_j79688823210541_1_alg».proof.Proof.Gen.ReferenceIdeal.Run
import proofs.«106032_j79688823210541_1_alg».proof.Proof.Gen.ReferenceIdeal.Read
import proofs.«106032_j79688823210541_1_alg».proof.Proof.KernelValue
import proofs.«106032_j79688823210541_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result at the network of their (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Whole.run m ρ, ?_⟩
  refine (θ_run Cert.ReferenceIdeal.defs _ _).mono (fun _ h c => ⟨(h c).1.trans ?_, (h c).2⟩) (Cert.ReferenceIdeal.Whole.run m' ρ')
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
